-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S1024x1024 : Shape := ⟨2, ![1024, 1024]⟩
abbrev S1024 : Shape := ⟨1, ![1024]⟩
abbrev S32x1024x5 : Shape := ⟨3, ![32, 1024, 5]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S32x1024x5 : S_.BroadcastsInDim S32x1024x5 (![] : Fin 0 → Fin S32x1024x5.rank)
  reducesTo_S32x1024x5_S_d0_1_2 : S32x1024x5.ReducesTo [0, 1, 2] S_
  reducesTo_S_S_d : S_.ReducesTo [] S_

variable [Facts]

def fn_part1 {F : FTy → Type} [FloatOps F] (main_arg4 : FVec F S32x1024x5 .f32) (main_arg5 : FVec F S_ .f32) (main_v13 : IVec S_ 1) (main_v16 : IVec S32x1024x5 1) : IVec S_ 1 :=
  let main_c_5 : IVec S_ 1 := constantI S_ 1 1#1
  let main_v17 : IVec S_ 1 := (fun x v => Host.reduce IntOp.andi x v reducesTo_S32x1024x5_S_d0_1_2 h_S_) main_v16 main_c_5
  let main_v18 : IVec S_ 1 := andi main_v13 main_v17
  let main_v19 : FVec F S32x1024x5 .f32 := Host.absf main_arg4
  let main_cst_6 : FVec F S_ .f32 := constant S_ .f32 0x7F800000#32
  let main_v20 : FVec F S32x1024x5 .f32 := broadcastInDim S32x1024x5 ![] bcast_S_S32x1024x5 main_cst_6
  let main_v21 : IVec S32x1024x5 1 := cmpf .olt main_v19 main_v20
  let main_c_7 : IVec S_ 1 := constantI S_ 1 1#1
  let main_v22 : IVec S_ 1 := (fun x v => Host.reduce IntOp.andi x v reducesTo_S32x1024x5_S_d0_1_2 h_S_) main_v21 main_c_7
  let main_v23 : IVec S_ 1 := andi main_v18 main_v22
  let main_v24 : FVec F S_ .f32 := Host.absf main_arg5
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  main_v27

def fn {F : FTy → Type} [FloatOps F] (main_arg0 : FVec F S32x1024x1024 .f32) (main_arg1 : FVec F S1024x1024 .f32) (main_arg2 : FVec F S1024 .f32) (main_arg3 : FVec F S32x1024x5 .f32) (main_arg4 : FVec F S32x1024x5 .f32) (main_arg5 : FVec F S_ .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S32x1024x5 .f32 := Host.absf main_arg3
  let main_cst_4 : FVec F S_ .f32 := constant S_ .f32 0x7F800000#32
  let main_v15 : FVec F S32x1024x5 .f32 := broadcastInDim S32x1024x5 ![] bcast_S_S32x1024x5 main_cst_4
  let main_v16 : IVec S32x1024x5 1 := cmpf .olt main_v14 main_v15
  fn_part1 (F := F) main_arg4 main_arg5 main_v13 main_v16
-- ==== Kernel.lean ====
abbrev S32x1024x1024 : Shape := ⟨3, ![32, 1024, 1024]⟩
abbrev S1024x1024 : Shape := ⟨2, ![1024, 1024]⟩
abbrev S1024 : Shape := ⟨1, ![1024]⟩
abbrev S32x1024x5 : Shape := ⟨3, ![32, 1024, 5]⟩
abbrev S_ : Shape := ⟨0, ![]⟩
abbrev S32x1024x1 : Shape := ⟨3, ![32, 1024, 1]⟩
abbrev S32x1024 : Shape := ⟨2, ![32, 1024]⟩
abbrev S1x1024 : Shape := ⟨2, ![1, 1024]⟩
abbrev S1024x1 : Shape := ⟨2, ![1024, 1]⟩
abbrev S1x1024x1024 : Shape := ⟨3, ![1, 1024, 1024]⟩
abbrev S1x1024x1 : Shape := ⟨3, ![1, 1024, 1]⟩

abbrev nBuf : Space → Nat
  | .hbm => 49
  | .vmem => 9
  | .smem => 0
  | _ => 0

abbrev bufTy : (tb : Table) → Fin (tcTables nBuf tb) → BufTy
  | .hbm, ⟨0, _⟩ => ⟨S32x1024x1024, .f32⟩
  | .hbm, ⟨1, _⟩ => ⟨S1024x1024, .f32⟩
  | .hbm, ⟨2, _⟩ => ⟨S1024, .f32⟩
  | .hbm, ⟨3, _⟩ => ⟨S32x1024x5, .f32⟩
  | .hbm, ⟨4, _⟩ => ⟨S32x1024x5, .f32⟩
  | .hbm, ⟨5, _⟩ => ⟨S_, .f32⟩
  | .hbm, ⟨6, _⟩ => ⟨S1024x1024, .f32⟩
  | .hbm, ⟨7, _⟩ => ⟨S1024x1024, .bf16⟩
  | .hbm, ⟨8, _⟩ => ⟨S32x1024x1024, .bf16⟩
  | .hbm, ⟨9, _⟩ => ⟨S32x1024x1, .f32⟩
  | .hbm, ⟨10, _⟩ => ⟨S32x1024, .f32⟩
  | .hbm, ⟨11, _⟩ => ⟨S32x1024x1, .f32⟩
  | .hbm, ⟨12, _⟩ => ⟨S32x1024, .f32⟩
  | .hbm, ⟨13, _⟩ => ⟨S32x1024, .f32⟩
  | .hbm, ⟨14, _⟩ => ⟨S32x1024x1, .f32⟩
  | .hbm, ⟨15, _⟩ => ⟨S32x1024, .f32⟩
  | .hbm, ⟨16, _⟩ => ⟨S32x1024x1, .f32⟩
  | .hbm, ⟨17, _⟩ => ⟨S32x1024, .f32⟩
  | .hbm, ⟨18, _⟩ => ⟨S32x1024, .f32⟩
  | .hbm, ⟨19, _⟩ => ⟨S32x1024, .f32⟩
  | .hbm, ⟨20, _⟩ => ⟨S32x1024, .f32⟩
  | .hbm, ⟨21, _⟩ => ⟨S_, .f32⟩
  | .hbm, ⟨22, _⟩ => ⟨S_, .f32⟩
  | .hbm, ⟨23, _⟩ => ⟨S32x1024, .f32⟩
  | .hbm, ⟨24, _⟩ => ⟨S32x1024, .f32⟩
  | .hbm, ⟨25, _⟩ => ⟨S32x1024, .f32⟩
  | .hbm, ⟨26, _⟩ => ⟨S32x1024x1, .f32⟩
  | .hbm, ⟨27, _⟩ => ⟨S1024, .i32⟩
  | .hbm, ⟨28, _⟩ => ⟨S1x1024, .i32⟩
  | .hbm, ⟨29, _⟩ => ⟨S1024x1, .i32⟩
  | .hbm, ⟨30, _⟩ => ⟨S1024x1024, .i32⟩
  | .hbm, ⟨31, _⟩ => ⟨S1024x1024, .i32⟩
  | .hbm, ⟨32, _⟩ => ⟨S1024x1024, .i32⟩
  | .hbm, ⟨33, _⟩ => ⟨S1024x1024, .i32⟩
  | .hbm, ⟨34, _⟩ => ⟨S1024x1024, .f32⟩
  | .hbm, ⟨35, _⟩ => ⟨S_, .f32⟩
  | .hbm, ⟨36, _⟩ => ⟨S1024x1024, .f32⟩
  | .hbm, ⟨37, _⟩ => ⟨S1024x1024, .i1⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S_, .f32⟩
  | .hbm, ⟨45, _⟩ => ⟨S_, .f32⟩
  | .hbm, ⟨46, _⟩ => ⟨S1024x1024, .f32⟩
  | .hbm, ⟨47, _⟩ => ⟨S1024x1024, .f32⟩
  | .hbm, ⟨48, _⟩ => ⟨S32x1024x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1024, .f32⟩
  | .local _ .vmem, ⟨4, _⟩ => ⟨S1x1024x1, .f32⟩
  | .local _ .vmem, ⟨5, _⟩ => ⟨S1x1024x1, .f32⟩
  | .local _ .vmem, ⟨6, _⟩ => ⟨S1024x1024, .f32⟩
  | .local _ .vmem, ⟨7, _⟩ => ⟨S1x1024x1024, .f32⟩
  | .local _ .vmem, ⟨8, _⟩ => ⟨S1x1024x1024, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_0 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_call0_v0 : Ref sig .tc := ⟨.hbm, 45, rfl⟩
abbrev main_call0_v1 : Ref sig .tc := ⟨.hbm, 46, rfl⟩
abbrev main_v34 : Ref sig .tc := ⟨.hbm, 47, rfl⟩
abbrev main_v35 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S1024x1024_S1024x1024_1_0 : S1024x1024.Transposes [1, 0] S1024x1024
  bitsLt_bf16_f32 : FTy.bits .bf16 < FTy.bits .f32
  slices_S32x1024x5_S32x1024x1_0_0_1 : S32x1024x5.Slices ![0, 0, 1] S32x1024x1
  shapeCasts_S32x1024x1_S32x1024 : S32x1024x1.ShapeCasts S32x1024
  slices_S32x1024x5_S32x1024x1_0_0_2 : S32x1024x5.Slices ![0, 0, 2] S32x1024x1
  slices_S32x1024x5_S32x1024x1_0_0_3 : S32x1024x5.Slices ![0, 0, 3] S32x1024x1
  slices_S32x1024x5_S32x1024x1_0_0_4 : S32x1024x5.Slices ![0, 0, 4] S32x1024x1
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S1024_S1x1024_1 : S1024.BroadcastsInDim S1x1024 (![1] : Fin 1 → Fin S1x1024.rank)
  bcast_S1024_S1024x1_0 : S1024.BroadcastsInDim S1024x1 (![0] : Fin 1 → Fin S1024x1.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024_S1x1024 : S1024.ShapeCasts S1x1024
  broadcasts_S1x1024_S1024x1024 : S1x1024.Broadcasts S1024x1024
  broadcasts_S1024x1_S1024x1024 : S1024x1.Broadcasts S1024x1024
  reduces_S1024x1024_S1024 : S1024x1024.Reduces [1] S1024
  shapeCasts_S1024_S1024x1 : S1024.ShapeCasts S1024x1
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .bf16 = 32 ∨ (Rect.block (s := S32x1024x1024) S1x1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S32x1024x1.size a
  hwx0_3 : ∀ i : grid0.Coords, EltTy.bits .f32 = 32 ∨ (Rect.block (s := S32x1024x1) S1x1024x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S32x1024x1024.size a
  hwx0_5 : ∀ i : grid0.Coords, EltTy.bits .f32 = 32 ∨ (Rect.block (s := S32x1024x1024) S1x1024x1024.size (cc0_transform_5 i) (hinb0_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v2) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S1024x1024 : Shape := ⟨2, ![1024, 1024]⟩
abbrev S1024 : Shape := ⟨1, ![1024]⟩
abbrev S32x1024x5 : Shape := ⟨3, ![32, 1024, 5]⟩
abbrev S_ : Shape := ⟨0, ![]⟩
abbrev S1x1x1024 : Shape := ⟨3, ![1, 1, 1024]⟩
abbrev S1x1024 : Shape := ⟨2, ![1, 1024]⟩
abbrev S1024x1 : Shape := ⟨2, ![1024, 1]⟩
abbrev S1x1024x1024 : Shape := ⟨3, ![1, 1024, 1024]⟩
abbrev S32x1024x1 : Shape := ⟨3, ![32, 1024, 1]⟩
abbrev S32x1024 : Shape := ⟨2, ![32, 1024]⟩

abbrev nBuf : Space → Nat
  | .hbm => 66
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S1024x1024, .f32⟩
  | .hbm, ⟨2, _⟩ => ⟨S1024, .f32⟩
  | .hbm, ⟨3, _⟩ => ⟨S32x1024x5, .f32⟩
  | .hbm, ⟨4, _⟩ => ⟨S32x1024x5, .f32⟩
  | .hbm, ⟨5, _⟩ => ⟨S_, .f32⟩
  | .hbm, ⟨6, _⟩ => ⟨S32x1024x1024, .f32⟩
  | .hbm, ⟨7, _⟩ => ⟨S1x1x1024, .f32⟩
  | .hbm, ⟨8, _⟩ => ⟨S32x1024x1024, .f32⟩
  | .hbm, ⟨9, _⟩ => ⟨S32x1024x1024, .f32⟩
  | .hbm, ⟨10, _⟩ => ⟨S32x1024x1024, .f32⟩
  | .hbm, ⟨11, _⟩ => ⟨S1024, .i32⟩
  | .hbm, ⟨12, _⟩ => ⟨S1x1024, .i32⟩
  | .hbm, ⟨13, _⟩ => ⟨S1024x1, .i32⟩
  | .hbm, ⟨14, _⟩ => ⟨S1024x1024, .i32⟩
  | .hbm, ⟨15, _⟩ => ⟨S1024x1024, .i32⟩
  | .hbm, ⟨16, _⟩ => ⟨S1024x1024, .i32⟩
  | .hbm, ⟨17, _⟩ => ⟨S1024x1024, .i32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1x1024x1024, .f32⟩
  | .hbm, ⟨26, _⟩ => ⟨S32x1024x1024, .f32⟩
  | .hbm, ⟨27, _⟩ => ⟨S32x1024x1024, .f32⟩
  | .hbm, ⟨28, _⟩ => ⟨S32x1024x1, .f32⟩
  | .hbm, ⟨29, _⟩ => ⟨S32x1024, .f32⟩
  | .hbm, ⟨30, _⟩ => ⟨S32x1024x1, .f32⟩
  | .hbm, ⟨31, _⟩ => ⟨S32x1024, .f32⟩
  | .hbm, ⟨32, _⟩ => ⟨S32x1024, .f32⟩
  | .hbm, ⟨33, _⟩ => ⟨S32x1024x1, .f32⟩
  | .hbm, ⟨34, _⟩ => ⟨S32x1024, .f32⟩
  | .hbm, ⟨35, _⟩ => ⟨S32x1024x1, .f32⟩
  | .hbm, ⟨36, _⟩ => ⟨S32x1024, .f32⟩
  | .hbm, ⟨37, _⟩ => ⟨S32x1024, .f32⟩
  | .hbm, ⟨38, _⟩ => ⟨S32x1024, .f32⟩
  | .hbm, ⟨39, _⟩ => ⟨S32x1024, .f32⟩
  | .hbm, ⟨40, _⟩ => ⟨S_, .f32⟩
  | .hbm, ⟨41, _⟩ => ⟨S_, .f32⟩
  | .hbm, ⟨42, _⟩ => ⟨S32x1024, .f32⟩
  | .hbm, ⟨43, _⟩ => ⟨S32x1024, .f32⟩
  | .hbm, ⟨44, _⟩ => ⟨S32x1024, .f32⟩
  | .hbm, ⟨45, _⟩ => ⟨S32x1024x1, .f32⟩
  | .hbm, ⟨46, _⟩ => ⟨S32x1024x1024, .f32⟩
  | .hbm, ⟨47, _⟩ => ⟨S32x1024x1024, .f32⟩
  | .hbm, ⟨48, _⟩ => ⟨S32x1024x1024, .f32⟩
  | .hbm, ⟨49, _⟩ => ⟨S32x1024x1024, .f32⟩
  | .hbm, ⟨50, _⟩ => ⟨S_, .f32⟩
  | .hbm, ⟨51, _⟩ => ⟨S1024x1024, .f32⟩
  | .hbm, ⟨52, _⟩ => ⟨S1024x1024, .i1⟩
  | .hbm, ⟨53, _⟩ => ⟨S1024x1024, .f32⟩
  | .hbm, ⟨54, _⟩ => ⟨S1x1024x1024, .f32⟩
  | .hbm, ⟨55, _⟩ => ⟨S32x1024x1024, .f32⟩
  | .hbm, ⟨56, _⟩ => ⟨S32x1024x1024, .f32⟩
  | .hbm, ⟨57, _⟩ => ⟨S_, .f32⟩
  | .hbm, ⟨58, _⟩ => ⟨S32x1024, .f32⟩
  | .hbm, ⟨59, _⟩ => ⟨S32x1024x1, .f32⟩
  | .hbm, ⟨60, _⟩ => ⟨S_, .f32⟩
  | .hbm, ⟨61, _⟩ => ⟨S32x1024x1, .f32⟩
  | .hbm, ⟨62, _⟩ => ⟨S32x1024x1, .f32⟩
  | .hbm, ⟨63, _⟩ => ⟨S32x1024x1024, .f32⟩
  | .hbm, ⟨64, _⟩ => ⟨S32x1024x1024, .f32⟩
  | .hbm, ⟨65, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_3 : Ref sig .tc := ⟨.hbm, 57, rfl⟩
abbrev main_v47 : Ref sig .tc := ⟨.hbm, 58, rfl⟩
abbrev main_v48 : Ref sig .tc := ⟨.hbm, 59, rfl⟩
abbrev main_cst_4 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S32x1024x1024_0_1_2 : S1x1x1024.BroadcastsInDim S32x1024x1024 (![0, 1, 2] : Fin 3 → Fin S32x1024x1024.rank)
  bcast_S1024_S1x1024_1 : S1024.BroadcastsInDim S1x1024 (![1] : Fin 1 → Fin S1x1024.rank)
  bcast_S1024_S1024x1_0 : S1024.BroadcastsInDim S1024x1 (![0] : Fin 1 → Fin S1024x1.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  slices_S32x1024x5_S32x1024x1_0_0_1 : S32x1024x5.Slices ![0, 0, 1] S32x1024x1
  shapeCasts_S32x1024x1_S32x1024 : S32x1024x1.ShapeCasts S32x1024
  slices_S32x1024x5_S32x1024x1_0_0_2 : S32x1024x5.Slices ![0, 0, 2] S32x1024x1
  slices_S32x1024x5_S32x1024x1_0_0_3 : S32x1024x5.Slices ![0, 0, 3] S32x1024x1
  slices_S32x1024x5_S32x1024x1_0_0_4 : S32x1024x5.Slices ![0, 0, 4] S32x1024x1
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  reducesTo_S32x1024x1024_S32x1024_d2 : S32x1024x1024.ReducesTo [2] S32x1024
  h_S_ : 0 < S_.numel
  bcast_S_S32x1024x1 : S_.BroadcastsInDim S32x1024x1 (![] : Fin 0 → Fin S32x1024x1.rank)
  dot_S32x1024x1024_S1024x1024_S32x1024x1024_2_1_01_0_n_n_wf : DotDims.WF S32x1024x1024 S1024x1024 S32x1024x1024 [2] [1] [0, 1] [0] [] []
  dot_S32x1024x1024_S32x1024x1024_S32x1024x1024_2_2_1_1_0_0_wf : DotDims.WF S32x1024x1024 S32x1024x1024 S32x1024x1024 [2] [2] [1] [1] [0] [0]
  dot_S32x1024x1024_S32x1024x1024_S32x1024x1024_2_1_1_2_0_0_wf : DotDims.WF S32x1024x1024 S32x1024x1024 S32x1024x1024 [2] [1] [1] [2] [0] [0]

variable [Facts₀]

def dot_S32x1024x1024_S1024x1024_S32x1024x1024_2_1_01_0_n_n : DotDims S32x1024x1024 S1024x1024 S32x1024x1024 where
  lhsContracting := [2]
  rhsContracting := [1]
  lhsNonContracting := [0, 1]
  rhsNonContracting := [0]
  lhsBatch := []
  rhsBatch := []
  wf := dot_S32x1024x1024_S1024x1024_S32x1024x1024_2_1_01_0_n_n_wf
def dot_S32x1024x1024_S32x1024x1024_S32x1024x1024_2_2_1_1_0_0 : DotDims S32x1024x1024 S32x1024x1024 S32x1024x1024 where
  lhsContracting := [2]
  rhsContracting := [2]
  lhsNonContracting := [1]
  rhsNonContracting := [1]
  lhsBatch := [0]
  rhsBatch := [0]
  wf := dot_S32x1024x1024_S32x1024x1024_S32x1024x1024_2_2_1_1_0_0_wf
def dot_S32x1024x1024_S32x1024x1024_S32x1024x1024_2_1_1_2_0_0 : DotDims S32x1024x1024 S32x1024x1024 S32x1024x1024 where
  lhsContracting := [2]
  rhsContracting := [1]
  lhsNonContracting := [1]
  rhsNonContracting := [2]
  lhsBatch := [0]
  rhsBatch := [0]
  wf := dot_S32x1024x1024_S32x1024x1024_S32x1024x1024_2_1_1_2_0_0_wf

class Facts : Prop extends Facts₀ where

variable [Facts]
-- ==== Proof.Spec.lean ====
/-
  The mathematics of the two programs, over abstract finite index types: `σ` for the sequence positions
  (queries `s`, keys `t`) and `δ` for the features (`d`, `e`), every value an extended real.

  Both programs compute, per batch element, a row-normalised attention
      out s d = ∑ t, w s t · x t d,      w s t = n s t / (∑ t', n s t' + ε),
  over scores  sc s t = ∑ e, (∑ d, x s d · wt d e + b e) · x t e  (a linear layer, then queries against keys).
  They differ in how the numerator `n` is masked off the diagonal and in how the quotient is spelt:
    • one side multiplies the score by `dec s t · ow s`, where `dec` is the distance decay with ZEROS on the
      diagonal, and keeps `exp (tanh …)` exactly where `dec ≠ 0` (`numK`); it multiplies by the reciprocal
      `1 / (∑ + ε)` (`outK`);
    • the other multiplies the score by the unmasked decay `D s t`, then by `ow s`, and multiplies
      `exp (tanh …)` by a 0/1 mask `M` (`numR`); it divides by `∑ + ε` (`outR`).
  They agree (`attn_eq`) when, at every pair, either `M = 1` and `dec = D`, or `M = 0` and `dec = 0`, and the
  unmasked decay is never zero: multiplication of extended reals is associative, `exp` is nowhere negative so
  the normaliser `∑ + ε` is positive, hence not zero, and off zero the product with the reciprocal is the
  quotient.
-/
import Idealize.ShloMosaic.Lib.IdealHost

noncomputable section

namespace Cert.Attn

open Idealize.ShloMosaic

variable {σ δ : Type} [Fintype σ] [Fintype δ]

/-- The linear layer: row `s` of `x` against column `e` of the transposed weight, plus the bias. -/
def lin (x : σ → δ → EReal) (wt : δ → δ → EReal) (b : δ → EReal) (s : σ) (e : δ) : EReal :=
  (∑ d, x s d * wt d e) + b e

/-- The score of query `s` against key `t`. -/
def score (x : σ → δ → EReal) (wt : δ → δ → EReal) (b : δ → EReal) (s t : σ) : EReal :=
  ∑ e, lin x wt b s e * x t e

/-- The numerator kept where the masked decay is not zero. -/
def numK (sc dec : σ → σ → EReal) (ow : σ → EReal) (s t : σ) : EReal :=
  if dec s t ≠ 0 then Ideal.exp (Ideal.tanh (sc s t * (dec s t * ow s))) else 0

/-- The numerator multiplied by a 0/1 mask. -/
def numR (sc D M : σ → σ → EReal) (ow : σ → EReal) (s t : σ) : EReal :=
  Ideal.exp (Ideal.tanh (sc s t * D s t * ow s)) * M s t

/-- The weighted sum of the rows of `x`, the weights normalised by the reciprocal of `∑ + ε`. -/
def outK (n : σ → σ → EReal) (x : σ → δ → EReal) (s : σ) (d : δ) : EReal :=
  ∑ t, n s t * Ideal.div 1 ((∑ t', n s t') + Ideal.ofBits .f32 0x3727C5AC#32) * x t d

/-- The weighted sum of the rows of `x`, the weights divided by `∑ + ε`. -/
def outR (n : σ → σ → EReal) (x : σ → δ → EReal) (s : σ) (d : δ) : EReal :=
  ∑ t, Ideal.div (n s t) ((∑ t', n s t') + Ideal.ofBits .f32 0x3727C5AC#32) * x t d

/-- The exponential of an extended real is not negative (`e^(-∞) = 0`, `e^(+∞) = +∞`). -/
theorem exp_nonneg (x : EReal) : 0 ≤ Ideal.exp x := by
  induction x using EReal.rec with
  | bot => exact le_refl _
  | top => exact le_top
  | coe r => rw [Ideal.exp_coe]; exact EReal.coe_nonneg.mpr (Real.exp_pos r).le

/-- ε, the f32 nearest 1e-5, is a positive real. -/
theorem eps_real : ∃ r : ℝ, 0 < r ∧ Ideal.ofBits .f32 0x3727C5AC#32 = (r : EReal) := by
  refine ⟨(10995116 : ℝ) / 2 ^ 40, by positivity, ?_⟩
  simp [Ideal.ofBits, Ideal.ieee, -EReal.coe_mul]; norm_num

theorem eps_pos : (0 : EReal) < Ideal.ofBits .f32 0x3727C5AC#32 := by
  obtain ⟨r, hr, e⟩ := eps_real
  rw [e]; exact EReal.coe_pos.mpr hr

/-- The reciprocal of a real plus ε is never zero: at a zero divisor the quotient is `+∞`, elsewhere the
    real reciprocal of a real that is not zero. -/
theorem div_one_real_add_eps_ne_zero (l : ℝ) :
    Ideal.div 1 ((l : EReal) + Ideal.ofBits .f32 0x3727C5AC#32) ≠ 0 := by
  obtain ⟨r, -, e⟩ := eps_real
  rw [e, ← EReal.coe_add]
  by_cases h : l + r = 0
  · rw [h, EReal.coe_zero, Ideal.div, if_pos rfl, if_pos (by norm_num)]
    exact EReal.top_ne_zero
  · rw [Ideal.div_coe h, one_mul]
    exact_mod_cast one_div_ne_zero h

/-- The two numerators agree. -/
theorem num_eq (sc dec D M : σ → σ → EReal) (ow : σ → EReal) (hD : ∀ s t, D s t ≠ 0)
    (hM : ∀ s t, (M s t = 1 ∧ dec s t = D s t) ∨ (M s t = 0 ∧ dec s t = 0)) :
    numK sc dec ow = numR sc D M ow := by
  funext s t
  unfold numK numR
  rcases hM s t with ⟨h1, h2⟩ | ⟨h1, h2⟩
  · rw [h1, h2, if_pos (hD s t), mul_one, mul_assoc]
  · rw [h1, h2, if_neg (fun h => h rfl), mul_zero]

/-- A masked numerator is not negative. -/
theorem numR_nonneg (sc D M : σ → σ → EReal) (ow : σ → EReal) (hM : ∀ s t, M s t = 1 ∨ M s t = 0) (s t : σ) :
    0 ≤ numR sc D M ow s t := by
  unfold numR
  refine EReal.mul_nonneg (exp_nonneg _) ?_
  rcases hM s t with h | h
  · rw [h]; exact zero_le_one
  · rw [h]

/-- Over numerators that are not negative the two normalisations agree. -/
theorem out_eq (n : σ → σ → EReal) (x : σ → δ → EReal) (hn : ∀ s t, 0 ≤ n s t) : outK n x = outR n x := by
  funext s d
  unfold outK outR
  have h0 : (0 : EReal) ≤ ∑ t', n s t' := Finset.sum_nonneg fun t _ => hn s t
  have hne : (∑ t', n s t') + Ideal.ofBits .f32 0x3727C5AC#32 ≠ 0 :=
    (lt_of_lt_of_le eps_pos (le_add_of_nonneg_left h0)).ne'
  exact Finset.sum_congr rfl fun t _ => by rw [Ideal.mul_one_div hne]

/-- The two programs' mathematics agree. -/
theorem attn_eq (x : σ → δ → EReal) (sc dec D M : σ → σ → EReal) (ow : σ → EReal) (hD : ∀ s t, D s t ≠ 0)
    (hM : ∀ s t, (M s t = 1 ∧ dec s t = D s t) ∨ (M s t = 0 ∧ dec s t = 0)) :
    outK (numK sc dec ow) x = outR (numR sc D M ow) x := by
  rw [num_eq sc dec D M ow hD hM]
  exact out_eq _ x (numR_nonneg sc D M ow fun s t => (hM s t).elim (fun h => .inl h.1) (fun h => .inr h.1))

end Cert.Attn

end
-- ==== Proof.KernelPay.lean ====
/-
  The kernel body's one stored value, read at an index.

  At one grid point the body holds a block `x0` of the (bf16) input, [1, S, D]; the transposed weight `x1`, [D, D];
  the bias `x2`, [D]; the per-query opinion weights `x3`, [1, S, 1]; and the masked decay table `x4`, [S, S]
  (S = D = 1024). It stores, at (0, s, d),
      ∑ t, n s t · (1 / (∑ t', n s t' + ε)) · x0 (0, t, d),
  where n s t = exp (tanh (sc s t · (x4 (s, t) · x3 (0, s, 0)))) where x4 (s, t) ≠ 0 and 0 elsewhere, and
  sc s t = ∑ e, (∑ d, x0 (0, s, d) · x1 (d, e) + x2 e) · x0 (0, t, e): `Cert.Attn.outK` of `Cert.Attn.numK` of
  `Cert.Attn.score`. Changes of float format are the identity on extended reals; the three matrix products are
  sums over the contracted coordinate; the row sum is a sum over the lane coordinate.
-/
import proofs.«409468_j32667521253551_3_alg».proof.Proof.Gen.KernelIdeal.Skeleton
import proofs.«409468_j32667521253551_3_alg».proof.Proof.Spec
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Pay

open Cert.KernelIdeal Cert.KernelIdeal.Gen Idealize.ShloMosaic Idealize.ShloMosaic.ValueIdx Cert.Attn

/-! ## The two contractions as sums over the contracted coordinate -/

/-- Rows against columns: the left operand's axis 1 is contracted with the right operand's axis 0. -/
abbrev Drc : DotDims S1024x1024 S1024x1024 S1024x1024 := dot_S1024x1024_S1024x1024_S1024x1024_1_0_0_1_n_n
/-- Rows against rows: both operands' axis 1 is contracted. -/
abbrev Drr : DotDims S1024x1024 S1024x1024 S1024x1024 := dot_S1024x1024_S1024x1024_S1024x1024_1_1_0_0_n_n

theorem lhs_rc_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_rc_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_rc_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_rc_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

theorem lhs_rr_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_rr_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_rr_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_rr_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- A product of rows against columns into a zero accumulator, at (s, e): the sum over k of l (s, k) · r (k, e). -/
theorem mm_rc_apply {φ₁ φ₂ : FTy} (l : FVec Ideal S1024x1024 φ₁) (r : FVec Ideal S1024x1024 φ₂) (s e : Fin 1024) :
    matmul Drc none l r (constant S1024x1024 .f32 0x00000000#32) (ix2 s e) = ∑ k : Fin 1024, l (ix2 s k) * r (ix2 k e) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 s e) ((contrEquiv1 dot_S1024x1024_S1024x1024_S1024x1024_1_0_0_1_n_n 1024 rfl rfl).symm k) = ix2 s k := funext fun a => Fin.ext (by
    match a with
    | ⟨0, _⟩ => exact lhs_rc_0 _ _
    | ⟨1, _⟩ => exact (lhs_rc_1 _ _).trans hk)
  have er : dot_S1024x1024_S1024x1024_S1024x1024_1_0_0_1_n_n.rhsIdx (ix2 s e) ((contrEquiv1 dot_S1024x1024_S1024x1024_S1024x1024_1_0_0_1_n_n 1024 rfl rfl).symm k) = ix2 k e := funext fun a => Fin.ext (by
    match a with
    | ⟨0, _⟩ => exact (rhs_rc_0 _ _).trans hk
    | ⟨1, _⟩ => exact rhs_rc_1 _ _)
  rw [el, er]

/-- A product of rows against rows into a zero accumulator, at (s, t): the sum over k of l (s, k) · r (t, k). -/
theorem mm_rr_apply {φ₁ φ₂ : FTy} (l : FVec Ideal S1024x1024 φ₁) (r : FVec Ideal S1024x1024 φ₂) (s t : Fin 1024) :
    matmul Drr none l r (constant S1024x1024 .f32 0x00000000#32) (ix2 s t) = ∑ k : Fin 1024, l (ix2 s k) * r (ix2 t k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 s t) ((contrEquiv1 dot_S1024x1024_S1024x1024_S1024x1024_1_1_0_0_n_n 1024 rfl rfl).symm k) = ix2 s k := funext fun a => Fin.ext (by
    match a with
    | ⟨0, _⟩ => exact lhs_rr_0 _ _
    | ⟨1, _⟩ => exact (lhs_rr_1 _ _).trans hk)
  have er : dot_S1024x1024_S1024x1024_S1024x1024_1_1_0_0_n_n.rhsIdx (ix2 s t) ((contrEquiv1 dot_S1024x1024_S1024x1024_S1024x1024_1_1_0_0_n_n 1024 rfl rfl).symm k) = ix2 t k := funext fun a => Fin.ext (by
    match a with
    | ⟨0, _⟩ => exact rhs_rr_0 _ _
    | ⟨1, _⟩ => exact (rhs_rr_1 _ _).trans hk)
  rw [el, er]

/-! ## Column forms: a vector as a column, a column broadcast along its rows -/

/-- A vector [a] cast to a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (i, j), the column at (i, 0). -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## Pointwise pieces -/

theorem exp_apply {s : Shape} {φ : FTy} (x : FVec Ideal s φ) (i : s.Idx) : exp x i = Ideal.exp (x i) := rfl
theorem tanh_apply {s : Shape} {φ : FTy} (x : FVec Ideal s φ) (i : s.Idx) : tanh x i = Ideal.tanh (x i) := rfl

/-- Keeping `p` where `a` is ordered-and-unequal to the zero word, else the zero word: on extended reals nothing is
    unordered and both zero patterns are `0`, so this is `p` where `a ≠ 0` and `0` elsewhere. -/
theorem select_ne_zero (a p : EReal) :
    Scalar.select (FloatOps.cmpf (F := Ideal) (φ := .f32) .one a (Ideal.ofBits .f32 0x00000000#32)) p
        (Ideal.ofBits .f32 0x00000000#32)
      = if a ≠ 0 then p else 0 := by
  show Scalar.select (Ideal.cmp .one a (Ideal.ofBits .f32 0x00000000#32)) p (Ideal.ofBits .f32 0x00000000#32) = _
  rw [Ideal.ofBits_zero_f32]
  unfold Ideal.cmp Scalar.select
  by_cases h : a = 0
  · simp [h]
  · simp [h]

/-- The sum along the lanes of row `s`. -/
theorem rowsum_apply (src : FVec Ideal S1024x1024 .f32) (hφ : FTy.f32 = FTy.f32 ∨ FTy.f32 = FTy.bf16)
    (hacc : (0x00000000#32 : BitVec 32) = 0x00000000#32) (s : Fin 1024) :
    multiReduction .add [1] S1024 src 0x00000000#32 reduces_S1024x1024_S1024 hφ hacc (ix1 s) = ∑ k : Fin 1024, src (ix2 s k) := by
  refine (Ideal.multiReduction_add_single src 0x00000000#32 reduces_S1024x1024_S1024 hφ hacc (ix1 s)).trans ?_
  refine Finset.sum_congr rfl fun k _ => congrArg src (funext fun a => Fin.ext ?_)
  match a with
  | ⟨0, _⟩ => rfl
  | ⟨1, _⟩ => rfl

/-! ## The stored value -/

/-- The body's stored value at (0, s, d) is the normalised attention of `Cert.Attn` over the block's rows. -/
theorem pay_apply (x0 : Vec Ideal S1x1024x1024 .bf16) (x1 : Vec Ideal S1024x1024 .bf16) (x2 : Vec Ideal S1024 .f32)
    (x3 : Vec Ideal S1x1024x1 .f32) (x4 : Vec Ideal S1024x1024 .f32) (u : Fin 1) (s d : Fin 1024) :
    k0_pay1 (F := Ideal) x0 x1 x2 x3 x4 (ix3 u s d)
      = outK (numK (score (fun s d => x0 (ix3 (0 : Fin 1) s d)) (fun d e => x1 (ix2 d e)) (fun e => x2 (ix1 e)))
              (fun s t => x4 (ix2 s t)) (fun s => x3 (ix3 (0 : Fin 1) s (0 : Fin 1))))
          (fun s d => x0 (ix3 (0 : Fin 1) s d)) s d := by
  unfold k0_pay1
  dsimp only
  simp only [shapeCast_ab_1ab_apply, mm_rc_apply, mm_rr_apply, truncf_apply, mulf_apply, addf_apply, select_apply,
    cmpf_apply, broadcast_apply, ValueIdx.divf_apply, broadcastTo_a1_ab_apply, broadcastTo_1b_ab_apply,
    shapeCast_a_1a_apply, shapeCast_a_a1_apply, shapeCast_1ab_ab_apply, shapeCast_self, exp_apply, tanh_apply,
    select_ne_zero, Ideal.ofBits_def, Ideal.ofBits_one_f32]
  rw [rowsum_apply]
  simp only [mm_rc_apply, mm_rr_apply, truncf_apply, mulf_apply, addf_apply, select_apply,
    cmpf_apply, broadcast_apply, broadcastTo_a1_ab_apply, broadcastTo_1b_ab_apply,
    shapeCast_a_1a_apply, shapeCast_1ab_ab_apply, exp_apply, tanh_apply, select_ne_zero]
  rfl

end Cert.KernelIdeal.Pay

end
-- ==== Proof.KernelBlocks.lean ====
/-
  From the blocks the grid points write back to the whole output array.

  The grid has one axis, the batch: point `t` stages block `t` of the (bf16) input `x`, [1, S, D] of [B, S, D], and
  block `t` of the opinion weights, [1, S, 1] of [B, S, 1]; the transposed weight, the bias and the masked decay table
  are whole at every point; it writes back block `t` of the output. So every index (b, s, d) of the output lies in
  exactly the block of point `b`, and the array ends holding, at (b, s, d), the body's stored value on batch `b`:
  `G` below, `Cert.Attn.outK` over the arrays as the region finds them.
-/
import proofs.«409468_j32667521253551_3_alg».proof.Proof.Gen.KernelIdeal.Value
import proofs.«409468_j32667521253551_3_alg».proof.Proof.KernelPay

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

/-! ## The arrays the region finds, by their literal types -/

abbrev xarr (c : Dev nD) : Vec Ideal S32x1024x1024 .bf16 := V m c main_v2
abbrev wtarr (c : Dev nD) : Vec Ideal S1024x1024 .bf16 := V m c main_v1
abbrev barr (c : Dev nD) : Vec Ideal S1024 .f32 := V m c main_arg2
abbrev owarr (c : Dev nD) : Vec Ideal S32x1024x1 .f32 := V m c main_v19
abbrev decarr (c : Dev nD) : Vec Ideal S1024x1024 .f32 := V m c main_v34

/-- The output at batch `b`, query `s`, feature `d`. -/
def Gat (c : Dev nD) (b : Fin 32) (s d : Fin 1024) : EReal :=
  outK (numK (score (fun s d => xarr m c (ix3 b s d)) (fun d e => wtarr m c (ix2 d e)) (fun e => barr m c (ix1 e)))
          (fun s t => decarr m c (ix2 s t)) (fun s => owarr m c (ix3 b s (0 : Fin 1))))
      (fun s d => xarr m c (ix3 b s d)) s d

/-- What the output array ends holding. -/
def G (c : Dev nD) : S32x1024x1024.Idx → EReal := fun i => Gat m c (i 0) (i 1) (i 2)

/-! ## The index maps, decided over the 32 grid points -/

theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- A grid point as a batch index. -/
def batch (t : Fin cfg0.N) : Fin 32 := ⟨t.val, lt_of_lt_of_eq t.isLt N_0⟩

theorem batch_val (t : Fin cfg0.N) : (batch t).val = t.val := rfl

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## Each window's block, read back as a slice of its array -/

theorem blk0 (c : Dev nD) (t : Fin cfg0.N) (u : Fin 1) (s d : Fin 1024) :
    iblk m c 0 t (ix3 u s d) = xarr m c (ix3 (batch t) s d) := by
  show V m c main_v2 (((cfg0.win 0).blk t).view.emb (ix3 u s d)) = V m c main_v2 (ix3 (batch t) s d)
  refine congrArg _ (funext fun a => Fin.ext ?_)
  obtain ⟨e0, e1, e2, -⟩ := idx_facts t
  have hu : u.val = 0 := by omega
  match a with
  | ⟨0, _⟩ => show win0_0.index t (0 : Fin 3) * 1 + 1 * u.val = t.val; omega
  | ⟨1, _⟩ => show win0_0.index t (1 : Fin 3) * 1024 + 1 * s.val = s.val; omega
  | ⟨2, _⟩ => show win0_0.index t (2 : Fin 3) * 1024 + 1 * d.val = d.val; omega

theorem blk1 (c : Dev nD) (t : Fin cfg0.N) (d e : Fin 1024) :
    iblk m c 1 t (ix2 d e) = wtarr m c (ix2 d e) := by
  show V m c main_v1 (((cfg0.win 1).blk t).view.emb (ix2 d e)) = V m c main_v1 (ix2 d e)
  refine congrArg _ (funext fun a => Fin.ext ?_)
  obtain ⟨-, -, -, e0, e1, -⟩ := idx_facts t
  match a with
  | ⟨0, _⟩ => show win0_1.index t (0 : Fin 2) * 1024 + 1 * d.val = d.val; omega
  | ⟨1, _⟩ => show win0_1.index t (1 : Fin 2) * 1024 + 1 * e.val = e.val; omega

theorem blk2 (c : Dev nD) (t : Fin cfg0.N) (e : Fin 1024) :
    iblk m c 2 t (ix1 e) = barr m c (ix1 e) := by
  show V m c main_arg2 (((cfg0.win 2).blk t).view.emb (ix1 e)) = V m c main_arg2 (ix1 e)
  refine congrArg _ (funext fun a => Fin.ext ?_)
  obtain ⟨-, -, -, -, -, e0, -⟩ := idx_facts t
  match a with
  | ⟨0, _⟩ => show win0_2.index t (0 : Fin 1) * 1024 + 1 * e.val = e.val; omega

theorem blk3 (c : Dev nD) (t : Fin cfg0.N) (u : Fin 1) (s : Fin 1024) (v : Fin 1) :
    iblk m c 3 t (ix3 u s v) = owarr m c (ix3 (batch t) s (0 : Fin 1)) := by
  show V m c main_v19 (((cfg0.win 3).blk t).view.emb (ix3 u s v)) = V m c main_v19 (ix3 (batch t) s (0 : Fin 1))
  refine congrArg _ (funext fun a => Fin.ext ?_)
  obtain ⟨-, -, -, -, -, -, e0, e1, e2, -⟩ := idx_facts t
  have hu : u.val = 0 := by omega
  have hv : v.val = 0 := by omega
  match a with
  | ⟨0, _⟩ => show win0_3.index t (0 : Fin 3) * 1 + 1 * u.val = t.val; omega
  | ⟨1, _⟩ => show win0_3.index t (1 : Fin 3) * 1024 + 1 * s.val = s.val; omega
  | ⟨2, _⟩ => show win0_3.index t (2 : Fin 3) * 1 + 1 * v.val = 0; omega

theorem blk4 (c : Dev nD) (t : Fin cfg0.N) (s k : Fin 1024) :
    iblk m c 4 t (ix2 s k) = decarr m c (ix2 s k) := by
  show V m c main_v34 (((cfg0.win 4).blk t).view.emb (ix2 s k)) = V m c main_v34 (ix2 s k)
  refine congrArg _ (funext fun a => Fin.ext ?_)
  obtain ⟨-, -, -, -, -, -, -, -, -, e0, e1, -⟩ := idx_facts t
  match a with
  | ⟨0, _⟩ => show win0_4.index t (0 : Fin 2) * 1024 + 1 * s.val = s.val; omega
  | ⟨1, _⟩ => show win0_4.index t (1 : Fin 2) * 1024 + 1 * k.val = k.val; omega

/-- The output window's block at point `t` sits at batch `t` of the array. -/
theorem emb5 (t : Fin cfg0.N) (u : Fin 1) (s d : Fin 1024) :
    ((cfg0.win 5).blk t).view.emb (ix3 u s d) = (ix3 (batch t) s d : S32x1024x1024.Idx) := by
  refine funext fun a => Fin.ext ?_
  obtain ⟨-, -, -, -, -, -, -, -, -, -, -, e0, e1, e2⟩ := idx_facts t
  have hu : u.val = 0 := by omega
  match a with
  | ⟨0, _⟩ => show win0_5.index t (0 : Fin 3) * 1 + 1 * u.val = t.val; omega
  | ⟨1, _⟩ => show win0_5.index t (1 : Fin 3) * 1024 + 1 * s.val = s.val; omega
  | ⟨2, _⟩ => show win0_5.index t (2 : Fin 3) * 1024 + 1 * d.val = d.val; omega

/-! ## What a point writes back, the cover, the array -/

/-- WHAT POINT `t` WRITES BACK is block `t` of `G`. -/
theorem flushed_eq (c : Dev nD) (t : Fin cfg0.N) :
    (dats m 0 c).flushed 5 t = ((cfg0.win 5).blk t).view.read (Elt Ideal) (G m c) := by
  rw [Value.flushed5]
  unfold out0_5
  rw [View.canon_unit_zero hz3]
  simp only [View.ld_unit_zero (S := S1x1024x1024) hz3, View.ld_unit_zero (S := S1024x1024) hz2,
    View.ld_unit_zero (S := S1024) hz1, View.ld_unit_zero (S := S1x1024x1) hz3]
  funext y
  obtain ⟨u, s, d, rfl⟩ : ∃ (u : Fin 1) (s d : Fin 1024), y = ix3 u s d := ⟨y 0, y 1, y 2, eq_ix3 y⟩
  show k0_pay1 (F := Ideal) (iblk m c 0 t) (iblk m c 1 t) (iblk m c 2 t) (iblk m c 3 t) (iblk m c 4 t) (ix3 u s d)
      = G m c (((cfg0.win 5).blk t).view.emb (ix3 u s d))
  rw [emb5]
  refine (Pay.pay_apply (iblk m c 0 t) (iblk m c 1 t) (iblk m c 2 t) (iblk m c 3 t) (iblk m c 4 t) u s d).trans ?_
  simp only [blk0, blk1, blk2, blk3, blk4]
  rfl

/-- An index of the array is in point `t`'s block iff each coordinate is in the block's range on its axis. -/
theorem mem_blk5 (t : Fin cfg0.N) (i : S32x1024x1024.Idx) :
    i ∈ ((cfg0.win 5).blk t).view.set ↔ ∀ a : Fin 3, win0_5.index t a * S1x1024x1024.size a ≤ (i a).val ∧ (i a).val < win0_5.index t a * S1x1024x1024.size a + S1x1024x1024.size a := by
  show i ∈ ((View.whole main_v35).slice (win0_5.rect t)).set ↔ _
  rw [View.set_slice_whole, Rect.mem_set_unit]
  exact Iff.rfl

/-- Every index (b, s, d) is in the block of point `b`. -/
theorem cover5 (i : S32x1024x1024.Idx) :
    ∃ t : Fin cfg0.N, (cfg0.win 5).flush t = true ∧ i ∈ ((cfg0.win 5).blk t).view.set := by
  have hi0 : (i 0).val < 32 := (i 0).isLt
  have hi1 : (i 1).val < 1024 := (i 1).isLt
  have hi2 : (i 2).val < 1024 := (i 2).isLt
  refine ⟨⟨(i 0).val, lt_of_lt_of_eq hi0 N_0.symm⟩, flush0_5 _, ?_⟩
  rw [mem_blk5]
  obtain ⟨-, -, -, -, -, -, -, -, -, -, -, e0, e1, e2⟩ := idx_facts ⟨(i 0).val, lt_of_lt_of_eq hi0 N_0.symm⟩
  have e0' : win0_5.index ⟨(i 0).val, lt_of_lt_of_eq hi0 N_0.symm⟩ (0 : Fin 3) = (i 0).val := e0
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 1024 ≤ (i 1).val ∧ (i 1).val < win0_5.index _ (1 : Fin 3) * 1024 + 1024; omega
  | ⟨2, _⟩ => show win0_5.index _ (2 : Fin 3) * 1024 ≤ (i 2).val ∧ (i 2).val < win0_5.index _ (2 : Fin 3) * 1024 + 1024; omega

/-- THE ARRAY after the run. -/
theorem final (c : Dev nD) : (dats m 0 c).arrAt 5 cfg0.N = G m c :=
  (dats m 0 c).arrAt_eq_of_cover 5 (G m c) (fun t _ => flushed_eq m c t) cover5

/-- The run, with the output array at `G` and the arguments unchanged. -/
theorem run : θ_run defs (onTc (τ := τ) (main (F := Ideal))) ⟨m, fun _ => 0, ρ⟩ fun r => ∀ c : Dev nD,
      r.2.mem ((c : Thread nD τ).loc main_v35) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Blocks

end
-- ==== Proof.KernelHost.lean ====
/- The kernel program's host preamble: what the four arrays staged for the region hold when the region is entered.
   The transposed weights and the activations pass through a narrowing format change (the identity at the ideal
   values); the per-query opinion weights and the masked decay table are built by the same operations, in the same
   order and with the same literals, as the reference program builds them, so each equals the reference's stage. -/
import proofs.«409468_j32667521253551_3_alg».proof.Proof.Gen.KernelIdeal.Frame
import proofs.«409468_j32667521253551_3_alg».proof.Proof.ReadP
import Idealize.ShloMosaic.Lib.StableHlo.Run
import Idealize.ShloMosaic.Lib.ValueIdx
import Idealize.ShloMosaic.Lib.ValueLayout
import Idealize.ShloMosaic.Lib.IdealHost

noncomputable section

namespace Cert.KernelIdeal.HostPre

open Cert.KernelIdeal Cert.KernelIdeal.Gen Idealize.ShloMosaic Idealize.ShloMosaic.TcCoe Idealize.SL.Sem Idealize.ShloMosaic.ValueIdx

/-! ## The staged arrays at any float instance

Each array is read off the fold of the 42 host operations: an operation's result at its own buffer is its function
of the operands' contents, and at any other buffer what was there before. -/

section AnyInstance

variable {F : FTy → Type} [FloatOps F]
variable (m : (ℓ : Loc nD τ sig) → Buf (Elt F) ℓ) (c : Dev nD)

/-- The activations x, narrowed to bf16. -/
theorem V_v2_gen : (V m c main_v2 : S32x1024x1024.Idx → Elt F .bf16)
    = truncf .bf16 (m ((c : Thread nD τ).loc main_arg0)) bitsLt_bf16_f32 := by
  dsimp only [Gen.V]
  simp only [Gen.hostOps0, Gen.hostOps0_1, List.flatten_cons, List.flatten_nil, List.append_nil, List.cons_append,
    List.nil_append]
  after_results <;> rfl

/-- The weights W, transposed (axes swapped) and then narrowed to bf16. -/
theorem V_v1_gen : (V m c main_v1 : S1024x1024.Idx → Elt F .bf16)
    = truncf .bf16 (transpose S1024x1024 [1, 0] (m ((c : Thread nD τ).loc main_arg1))
        transposes_S1024x1024_S1024x1024_1_0) bitsLt_bf16_f32 := by
  dsimp only [Gen.V]
  simp only [Gen.hostOps0, Gen.hostOps0_1, List.flatten_cons, List.flatten_nil, List.append_nil, List.cons_append,
    List.nil_append]
  after_results <;> rfl

open Idealize.ShloMosaic.StableHlo in
/-- The opinion weights ow[b, t, 0] = α·(p[b,t,1] + p[b,t,2]) + (1 − α)·(q[b,t,3] + q[b,t,4]): the reference's
    stage of the same name, operation for operation. -/
theorem V_v19_gen : (V m c main_v19 : S32x1024x1.Idx → Elt F .f32)
    = Cert.ReferenceIdeal.ReadP.val_main_v36 (F := F) (m ((c : Thread nD τ).loc main_arg3))
        (m ((c : Thread nD τ).loc main_arg4)) (m ((c : Thread nD τ).loc main_arg5)) := by
  dsimp only [Gen.V]
  simp only [Gen.hostOps0, Gen.hostOps0_1, List.flatten_cons, List.flatten_nil, List.append_nil, List.cons_append,
    List.nil_append]
  after_results_simp
  unfold Cert.ReferenceIdeal.ReadP.val_main_v36 Cert.ReferenceIdeal.ReadP.val_main_v35 Cert.ReferenceIdeal.ReadP.val_main_v34 Cert.ReferenceIdeal.ReadP.val_main_v33 Cert.ReferenceIdeal.ReadP.val_main_v32
    Cert.ReferenceIdeal.ReadP.val_main_cst_1 Cert.ReferenceIdeal.ReadP.val_main_v31 Cert.ReferenceIdeal.ReadP.val_main_v30 Cert.ReferenceIdeal.ReadP.val_main_v29 Cert.ReferenceIdeal.ReadP.val_main_v28
    Cert.ReferenceIdeal.ReadP.val_main_v27 Cert.ReferenceIdeal.ReadP.val_main_v26 Cert.ReferenceIdeal.ReadP.val_main_v25 Cert.ReferenceIdeal.ReadP.val_main_v24 Cert.ReferenceIdeal.ReadP.val_main_v23
    Cert.ReferenceIdeal.ReadP.val_main_v22 Cert.ReferenceIdeal.ReadP.val_main_v21 Cert.ReferenceIdeal.ReadP.val_main_v20
  rfl

open Idealize.ShloMosaic.StableHlo in
/-- The masked decay table: where |t − s| ≠ 0 (the reference's compare stage) the reference's unmasked decay
    1/(|t − s| + ε), elsewhere the constant 0. The callee that does the selection receives the constant through
    an identity and typed references, which change nothing. -/
theorem V_v34_gen : (V m c main_v34 : S1024x1024.Idx → Elt F .f32)
    = select (Cert.ReferenceIdeal.ReadP.val_main_v42 (F := F)) (Cert.ReferenceIdeal.ReadP.val_main_v16 (F := F))
        (broadcastInDim S1024x1024 ![] bcast_S_S1024x1024 (constant (F := F) S_ .f32 0x00000000#32)) := by
  dsimp only [Gen.V]
  simp only [Gen.hostOps0, Gen.hostOps0_1, List.flatten_cons, List.flatten_nil, List.append_nil, List.cons_append,
    List.nil_append]
  after_results_simp
  simp only [TRef.ofBuf, TRef.toBuf, cast_eq, id_eq]
  unfold Cert.ReferenceIdeal.ReadP.val_main_v42 Cert.ReferenceIdeal.ReadP.val_main_v41 Cert.ReferenceIdeal.ReadP.val_main_cst_2 Cert.ReferenceIdeal.ReadP.val_main_v16 Cert.ReferenceIdeal.ReadP.val_main_v15
    Cert.ReferenceIdeal.ReadP.val_main_cst_0 Cert.ReferenceIdeal.ReadP.val_main_v14 Cert.ReferenceIdeal.ReadP.val_main_v13 Cert.ReferenceIdeal.ReadP.val_main_cst Cert.ReferenceIdeal.ReadP.val_main_v12
    Cert.ReferenceIdeal.ReadP.val_main_v11 Cert.ReferenceIdeal.ReadP.val_main_v10 Cert.ReferenceIdeal.ReadP.val_main_v9 Cert.ReferenceIdeal.ReadP.val_main_v8 Cert.ReferenceIdeal.ReadP.val_main_v7
    Cert.ReferenceIdeal.ReadP.val_main_v6 Cert.ReferenceIdeal.ReadP.val_main_v5
  rfl

end AnyInstance

/-! ## At the ideal values -/

variable (m : (ℓ : Loc nD τ sig) → Buf (Elt Ideal) ℓ) (c : Dev nD)

theorem V_v2 : (V m c main_v2 : S32x1024x1024.Idx → EReal)
    = truncf (F := Ideal) (s := S32x1024x1024) (φ := .f32) .bf16 (m ((c : Thread nD τ).loc main_arg0))
        bitsLt_bf16_f32 := V_v2_gen m c

theorem V_v1 : (V m c main_v1 : S1024x1024.Idx → EReal)
    = truncf (F := Ideal) (s := S1024x1024) (φ := .f32) .bf16
        (transpose S1024x1024 [1, 0] (m ((c : Thread nD τ).loc main_arg1)) transposes_S1024x1024_S1024x1024_1_0)
        bitsLt_bf16_f32 := V_v1_gen m c

theorem V_v19 : (V m c main_v19 : S32x1024x1.Idx → EReal)
    = Cert.ReferenceIdeal.ReadP.val_main_v36 (F := Ideal) (m ((c : Thread nD τ).loc main_arg3))
        (m ((c : Thread nD τ).loc main_arg4)) (m ((c : Thread nD τ).loc main_arg5)) := V_v19_gen m c

theorem V_v34 : (V m c main_v34 : S1024x1024.Idx → EReal)
    = select (Cert.ReferenceIdeal.ReadP.val_main_v42 (F := Ideal)) (Cert.ReferenceIdeal.ReadP.val_main_v16 (F := Ideal))
        (broadcastInDim S1024x1024 ![] bcast_S_S1024x1024 (constant (F := Ideal) S_ .f32 0x00000000#32)) :=
  V_v34_gen m c

/-! ## Their elements -/

/-- An activation as launched: narrowing the format is the identity on extended reals. -/
theorem V_v2_apply (b : Fin 32) (s d : Fin 1024) :
    V m c main_v2 (ix3 b s d) = m ((c : Thread nD τ).loc main_arg0) (ix3 b s d) := by
  have h := congrFun (V_v2 m c) (ix3 b s d)
  rw [truncf_apply] at h
  exact h

/-- Entry (d, e) of the staged weights is entry (e, d) of W as launched. -/
theorem V_v1_apply (d e : Fin 1024) :
    V m c main_v1 (ix2 d e) = m ((c : Thread nD τ).loc main_arg1) (ix2 e d) := by
  have h := congrFun (V_v1 m c) (ix2 d e)
  rw [truncf_apply, transpose_ix2_apply] at h
  exact h

/-- An entry of the masked decay table: the selection at that entry, the broadcast constant read as the real 0. -/
theorem V_v34_apply (i : S1024x1024.Idx) :
    V m c main_v34 i = Scalar.select (Cert.ReferenceIdeal.ReadP.val_main_v42 (F := Ideal) i) (Cert.ReferenceIdeal.ReadP.val_main_v16 (F := Ideal) i) 0 := by
  have h := congrFun (V_v34 m c) i
  rw [select_apply, broadcastInDim_scalar_apply, constant_apply, Ideal.ofBits_zero_f32] at h
  exact h

end Cert.KernelIdeal.HostPre
-- ==== Proof.RefValue.lean ====
/-
  The reference program's result, read at an index.

  Per batch element `b` the reference forms xt = x·Wᵀ + bias, the scores sc s t = ∑ e, xt s e · x t e, the numerators
  n s t = exp (tanh (sc s t · D s t · ow s)) · M s t — `D` the decay 1/(|t − s| + ε), a table that depends on no input,
  `M` the 0/1 table of |t − s| ≠ 0 read as a float, `ow` the per-query opinion weight — and the result
  ∑ t, (n s t / (∑ t', n s t' + ε)) · x t d: `Cert.Attn.outR` of `Cert.Attn.numR` of `Cert.Attn.score`. Each stage
  is read at an index from its operands at an index; the matrix products and the row sum are sums over one coordinate.
  The decay is never zero (the distance is an integer, so |t − s| + ε is a real and its reciprocal is not 0), and the
  mask is 1 or 0 with the compare's bit.
-/
import proofs.«409468_j32667521253551_3_alg».proof.Proof.ReadP
import proofs.«409468_j32667521253551_3_alg».proof.Proof.Spec
import Idealize.ShloMosaic.Lib.IdealHost
import Idealize.ShloMosaic.Lib.ValueLayout

noncomputable section
namespace Cert.ReferenceIdeal.RefValue
open Cert.ReferenceIdeal Cert.ReferenceIdeal.ReadP Idealize.ShloMosaic Idealize.ShloMosaic.ValueIdx Cert.Attn

/-- The unmasked decay 1/(|t−s| + ε) is never zero: the distance is an integer, hence a real. -/
theorem decay_ne_zero (i : S1024x1024.Idx) : val_main_v16 (F := Ideal) i ≠ 0 := by
  rw [val_main_v16_apply, val_main_v15_apply, val_main_cst_0_apply, val_main_v14_apply, val_main_v12_apply,
    val_main_v13_apply, val_main_cst_apply]
  rw [Ideal.hostDivf_def, Ideal.addf_def, Ideal.ofBits_def, Ideal.ofBits_def, Ideal.ofBits_one_f32]
  exact Cert.Attn.div_one_real_add_eps_ne_zero _

/-- The mask is the compare's bit read as a float: one where it is set, zero where it is not. -/
theorem mask_cases (i : S1024x1024.Idx) :
    (val_main_v42 (F := Ideal) i = 1#1 ∧ val_main_v43 (F := Ideal) i = 1) ∨ (val_main_v42 (F := Ideal) i = 0#1 ∧ val_main_v43 (F := Ideal) i = 0) := by
  rw [val_main_v43_apply]
  by_cases h : val_main_v42 (F := Ideal) i = 1#1
  · left
    refine ⟨h, ?_⟩
    rw [h]
    show (((1#1 : BitVec 1).toNat : ℝ) : EReal) = 1
    simp
  · right
    have h0 := eq_zero_of_ne_one h
    refine ⟨h0, ?_⟩
    rw [h0]
    show (((0#1 : BitVec 1).toNat : ℝ) : EReal) = 0
    simp

/-! ### Index equations: the composed index maps of the reading, at an index given by its coordinates -/

section Indices
variable (b : Fin 32) (s t d e k : Fin 1024)

theorem lidx_v53_ix : lidx_main_v53 (ix3 b s d) k = ix3 b s k := by
  funext a; match a with | ⟨0, _⟩ => rfl | ⟨1, _⟩ => rfl | ⟨2, _⟩ => rfl
theorem ridx_v53_ix : ridx_main_v53 (ix3 b s d) k = ix3 b k d := by
  funext a; match a with | ⟨0, _⟩ => rfl | ⟨1, _⟩ => rfl | ⟨2, _⟩ => rfl
theorem idx_v51_ix : idx_main_v51 (ix3 b s t) = ix3 b s (0 : Fin 1) := by
  funext a; match a with | ⟨0, _⟩ => rfl | ⟨1, _⟩ => rfl | ⟨2, _⟩ => rfl
theorem idx_v48_ix : idx_main_v48 (ix3 b s (0 : Fin 1)) = ix2 b s := by
  funext a; match a with | ⟨0, _⟩ => rfl | ⟨1, _⟩ => rfl
theorem idx_v47_ix : idx_main_v47 (ix2 b s) k = ix3 b s k := by
  funext a; match a with | ⟨0, _⟩ => rfl | ⟨1, _⟩ => rfl | ⟨2, _⟩ => rfl
theorem idx_v45_ix : idx_main_v45 (ix3 b s t) = ix3 (0 : Fin 1) s t := by
  funext a; match a with | ⟨0, _⟩ => rfl | ⟨1, _⟩ => rfl | ⟨2, _⟩ => rfl
theorem idx_v44_ix : idx_main_v44 (ix3 (0 : Fin 1) s t) = ix2 s t := by
  funext a; match a with | ⟨0, _⟩ => rfl | ⟨1, _⟩ => rfl
theorem idx_v37_ix : idx_main_v37 (ix3 b s t) = ix3 b s (0 : Fin 1) := by
  funext a; match a with | ⟨0, _⟩ => rfl | ⟨1, _⟩ => rfl | ⟨2, _⟩ => rfl
theorem idx_v18_ix : idx_main_v18 (ix3 b s t) = ix3 (0 : Fin 1) s t := by
  funext a; match a with | ⟨0, _⟩ => rfl | ⟨1, _⟩ => rfl | ⟨2, _⟩ => rfl
theorem idx_v17_ix : idx_main_v17 (ix3 (0 : Fin 1) s t) = ix2 s t := by
  funext a; match a with | ⟨0, _⟩ => rfl | ⟨1, _⟩ => rfl
theorem lidx_v4_ix : lidx_main_v4 (ix3 b s t) k = ix3 b s k := by
  funext a; match a with | ⟨0, _⟩ => rfl | ⟨1, _⟩ => rfl | ⟨2, _⟩ => rfl
theorem ridx_v4_ix : ridx_main_v4 (ix3 b s t) k = ix3 b t k := by
  funext a; match a with | ⟨0, _⟩ => rfl | ⟨1, _⟩ => rfl | ⟨2, _⟩ => rfl
theorem lidx_v0_ix : lidx_main_v0 (ix3 b s e) k = ix3 b s k := by
  funext a; match a with | ⟨0, _⟩ => rfl | ⟨1, _⟩ => rfl | ⟨2, _⟩ => rfl
theorem ridx_v0_ix : ridx_main_v0 (ix3 b s e) k = ix2 e k := by
  funext a; match a with | ⟨0, _⟩ => rfl | ⟨1, _⟩ => rfl
theorem idx_v2_v1_ix : idx_main_v1 (idx_main_v2 (ix3 b s e)) = ix1 e := by
  funext a; match a with | ⟨0, _⟩ => rfl

end Indices

section Stages
variable (x0 : S32x1024x1024.Idx → EReal) (x1 : S1024x1024.Idx → EReal) (x2 : S1024.Idx → EReal)
  (x3 x4 : S32x1024x5.Idx → EReal) (x5 : S_.Idx → EReal) (b : Fin 32) (s t d : Fin 1024)

/-- The score: the linear layer's row `s` against the key row `t`. -/
theorem score_apply :
    val_main_v4 (F := Ideal) x0 x1 x2 (ix3 b s t)
      = score (fun s d => x0 (ix3 b s d)) (fun d e => x1 (ix2 e d)) (fun e => x2 (ix1 e)) s t := by
  unfold score lin
  rw [val_main_v4_apply]
  refine Finset.sum_congr rfl fun e _ => ?_
  rw [lidx_v4_ix, ridx_v4_ix, val_main_v3_apply, val_main_v0_apply, val_main_v2_apply, val_main_v1_apply,
    Ideal.addf_def, idx_v2_v1_ix]
  simp only [lidx_v0_ix, ridx_v0_ix]

/-- The numerator at `(b, s, t)`: the exponential of the hyperbolic tangent of score · decay · opinion weight,
    times the mask. -/
theorem num_apply :
    val_main_v46 (F := Ideal) x0 x1 x2 x3 x4 x5 (ix3 b s t)
      = numR (score (fun s d => x0 (ix3 b s d)) (fun d e => x1 (ix2 e d)) (fun e => x2 (ix1 e)))
          (fun s t => val_main_v16 (F := Ideal) (ix2 s t)) (fun s t => val_main_v43 (F := Ideal) (ix2 s t))
          (fun s => val_main_v36 (F := Ideal) x3 x4 x5 (ix3 b s 0)) s t := by
  unfold numR
  rw [val_main_v46_apply, val_main_v40_apply, val_main_v39_apply, val_main_v38_apply, val_main_v19_apply,
    val_main_v37_apply, val_main_v18_apply, val_main_v17_apply, val_main_v45_apply, val_main_v44_apply,
    idx_v37_ix, idx_v18_ix, idx_v17_ix, idx_v45_ix, idx_v44_ix, score_apply,
    Ideal.mulf_def, Ideal.mulf_def, Ideal.mulf_def, Ideal.hostUnary_exp_def, Ideal.hostUnary_tanh_def]

/-- The normaliser at `(b, s, t)`: the row sum of the numerators plus ε. -/
theorem norm_apply :
    val_main_v51 (F := Ideal) x0 x1 x2 x3 x4 x5 (ix3 b s t)
      = (∑ t' : Fin 1024, val_main_v46 (F := Ideal) x0 x1 x2 x3 x4 x5 (ix3 b s t')) + Ideal.ofBits .f32 0x3727C5AC#32 := by
  rw [val_main_v51_apply, idx_v51_ix, val_main_v50_apply, val_main_v48_apply, idx_v48_ix, val_main_v47_apply,
    val_main_v49_apply, val_main_cst_4_apply, val_main_cst_3_apply, Ideal.addf_def, Ideal.ofBits_def, Ideal.ofBits_def,
    Ideal.ofBits_zero_f32, zero_add]
  simp only [idx_v47_ix]

end Stages

/-- The reference's result at (b, s, d), in the shared mathematics. -/
theorem result_apply (x0 : S32x1024x1024.Idx → EReal) (x1 : S1024x1024.Idx → EReal) (x2 : S1024.Idx → EReal)
    (x3 x4 : S32x1024x5.Idx → EReal) (x5 : S_.Idx → EReal) (b : Fin 32) (s d : Fin 1024) :
    val_main_v53 (F := Ideal) x0 x1 x2 x3 x4 x5 (ix3 b s d)
      = outR (numR (score (fun s d => x0 (ix3 b s d)) (fun d e => x1 (ix2 e d)) (fun e => x2 (ix1 e)))
            (fun s t => val_main_v16 (F := Ideal) (ix2 s t)) (fun s t => val_main_v43 (F := Ideal) (ix2 s t))
            (fun s => val_main_v36 (F := Ideal) x3 x4 x5 (ix3 b s 0)))
          (fun s d => x0 (ix3 b s d)) s d := by
  unfold outR
  rw [val_main_v53_apply]
  refine Finset.sum_congr rfl fun t _ => ?_
  rw [lidx_v53_ix, ridx_v53_ix, val_main_v52_apply, Ideal.hostDivf_def, norm_apply]
  simp only [num_apply]

end Cert.ReferenceIdeal.RefValue
end
-- ==== Proof.Bridge.lean ====
/-
  The two programs' results are one function of the arguments.

  The kernel program's output array ends at `Cert.Attn.outK` of `numK` over the arrays its region finds; those are
  the arguments themselves (the activations and the transposed weights through a change of format, the identity on
  extended reals) and the two tables its host preamble builds, which are the reference's own stages: the opinion
  weights, and the decay table 1/(|t − s| + ε) with zeros selected on the diagonal. The reference's result is
  `Cert.Attn.outR` of `numR` over the unmasked decay and the 0/1 mask of the same compare. Where the compare's bit is
  set the mask is 1 and the selected entry is the unmasked decay, which is never zero; where it is clear the mask is 0
  and the selected entry is 0: the hypotheses of `Cert.Attn.attn_eq`.
-/
import proofs.«409468_j32667521253551_3_alg».proof.Proof.KernelBlocks
import proofs.«409468_j32667521253551_3_alg».proof.Proof.KernelHost
import proofs.«409468_j32667521253551_3_alg».proof.Proof.RefValue

noncomputable section

namespace Cert.Bridge

open Idealize.ShloMosaic Idealize.ShloMosaic.TcCoe Idealize.SL.Sem Idealize.ShloMosaic.ValueIdx Cert.Attn
open Cert.KernelIdeal

variable (m : (ℓ : Loc nD τ sig) → Buf (Elt Ideal) ℓ)

/-- The masked decay table against the reference's unmasked decay and mask, entry by entry. -/
theorem mask_decay (c : Dev nD) (s t : Fin 1024) :
    (Cert.ReferenceIdeal.ReadP.val_main_v43 (F := Ideal) (ix2 s t) = 1
        ∧ (Gen.V m c main_v34 (ix2 s t) : EReal) = Cert.ReferenceIdeal.ReadP.val_main_v16 (F := Ideal) (ix2 s t))
      ∨ (Cert.ReferenceIdeal.ReadP.val_main_v43 (F := Ideal) (ix2 s t) = 0 ∧ Gen.V m c main_v34 (ix2 s t) = (0 : EReal)) := by
  rcases Cert.ReferenceIdeal.RefValue.mask_cases (ix2 s t) with ⟨h42, h43⟩ | ⟨h42, h43⟩
  · exact .inl ⟨h43, by rw [HostPre.V_v34_apply, h42, select_one]⟩
  · exact .inr ⟨h43, by rw [HostPre.V_v34_apply, h42, select_zero]⟩

/-- The kernel program's output array is the reference's result stage of the same arguments. -/
theorem G_eq (c : Dev nD) :
    Blocks.G m c = Cert.ReferenceIdeal.ReadP.val_main_v53 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) := by
  funext i
  obtain ⟨b, s, d, rfl⟩ : ∃ (b : Fin 32) (s d : Fin 1024), i = ix3 b s d := ⟨i 0, i 1, i 2, eq_ix3 i⟩
  refine Eq.trans ?_ (Cert.ReferenceIdeal.RefValue.result_apply (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) b s d).symm
  -- the arrays the region finds, as functions of the arguments
  have hx : (fun (s d : Fin 1024) => Blocks.xarr m c (ix3 b s d))
      = fun s d => (m ((c : Thread nD τ).loc main_arg0) : S32x1024x1024.Idx → EReal) (ix3 b s d) :=
    funext fun s => funext fun d => HostPre.V_v2_apply m c b s d
  have hw : (fun (d e : Fin 1024) => Blocks.wtarr m c (ix2 d e))
      = fun d e => (m ((c : Thread nD τ).loc main_arg1) : S1024x1024.Idx → EReal) (ix2 e d) :=
    funext fun d => funext fun e => HostPre.V_v1_apply m c d e
  have hb : (fun e : Fin 1024 => Blocks.barr m c (ix1 e))
      = fun e => (m ((c : Thread nD τ).loc main_arg2) : S1024.Idx → EReal) (ix1 e) :=
    funext fun e => congrFun (Gen.V_main_arg2 m c) (ix1 e)
  have ho : (fun s : Fin 1024 => Blocks.owarr m c (ix3 b s (0 : Fin 1)))
      = fun s => Cert.ReferenceIdeal.ReadP.val_main_v36 (F := Ideal) (m ((c : Thread nD τ).loc main_arg3))
          (m ((c : Thread nD τ).loc main_arg4)) (m ((c : Thread nD τ).loc main_arg5)) (ix3 b s (0 : Fin 1)) :=
    funext fun s => congrFun (HostPre.V_v19 m c) (ix3 b s (0 : Fin 1))
  show Blocks.Gat m c b s d = _
  unfold Blocks.Gat
  rw [hx, hw, hb, ho]
  exact congrFun (congrFun (attn_eq
    (fun s d => (m ((c : Thread nD τ).loc main_arg0) : S32x1024x1024.Idx → EReal) (ix3 b s d))
    (score (fun s d => (m ((c : Thread nD τ).loc main_arg0) : S32x1024x1024.Idx → EReal) (ix3 b s d))
      (fun d e => (m ((c : Thread nD τ).loc main_arg1) : S1024x1024.Idx → EReal) (ix2 e d))
      (fun e => (m ((c : Thread nD τ).loc main_arg2) : S1024.Idx → EReal) (ix1 e)))
    (fun s t => Blocks.decarr m c (ix2 s t))
    (fun s t => Cert.ReferenceIdeal.ReadP.val_main_v16 (F := Ideal) (ix2 s t))
    (fun s t => Cert.ReferenceIdeal.ReadP.val_main_v43 (F := Ideal) (ix2 s t))
    (fun s => Cert.ReferenceIdeal.ReadP.val_main_v36 (F := Ideal) (m ((c : Thread nD τ).loc main_arg3))
          (m ((c : Thread nD τ).loc main_arg4)) (m ((c : Thread nD τ).loc main_arg5)) (ix3 b s (0 : Fin 1)))
    (fun s t => Cert.ReferenceIdeal.RefValue.decay_ne_zero (ix2 s t))
    (fun s t => mask_decay m c s t)) s) d

end Cert.Bridge

end
-- ==== Proof.lean ====
/-
  An attention layer with distance decay and an opinion weighting, computed by a kernel over the batch axis and by a
  plain reference, are one function of their arguments on the extended reals.

  Per batch element both form the linear layer x·Wᵀ + b, its scores against the rows of x, multiply each score by the
  decay 1/(|t − s| + ε) and by the query's opinion weight, take exp ∘ tanh, zero the diagonal, divide each row by its
  sum plus ε, and sum the rows of x with those weights. The kernel multiplies the score by (decay · weight) where the
  reference multiplies (score · decay) by the weight; it zeroes the diagonal by selecting on a decay table whose
  diagonal is already zero where the reference multiplies by a 0/1 mask; and it multiplies by the reciprocal of the
  normaliser where the reference divides. `Cert.Attn.attn_eq` is the law that joins them (associativity of the
  product, a decay that is never zero off the diagonal, a positive normaliser); `Cert.KernelIdeal.Blocks` reads the
  kernel's output array off its blocks, `Cert.ReferenceIdeal.RefValue` the reference's result off its stages, and
  `Cert.Bridge.G_eq` sets them equal. The three frames are the programs' runs with the results dropped; the
  idealization rewrote nothing, so `preserves` has nothing to state.
-/
import proofs.«409468_j32667521253551_3_alg».proof.Defs
import proofs.«409468_j32667521253551_3_alg».proof.Proof.Gen.Kernel
import proofs.«409468_j32667521253551_3_alg».proof.Proof.Gen.Kernel.Skeleton
import proofs.«409468_j32667521253551_3_alg».proof.Proof.Gen.Kernel.Launch
import proofs.«409468_j32667521253551_3_alg».proof.Proof.Gen.Kernel.Points
import proofs.«409468_j32667521253551_3_alg».proof.Proof.Gen.Kernel.Frame
import proofs.«409468_j32667521253551_3_alg».proof.Proof.Gen.KernelIdeal
import proofs.«409468_j32667521253551_3_alg».proof.Proof.Gen.KernelIdeal.Skeleton
import proofs.«409468_j32667521253551_3_alg».proof.Proof.Gen.KernelIdeal.Launch
import proofs.«409468_j32667521253551_3_alg».proof.Proof.Gen.KernelIdeal.Points
import proofs.«409468_j32667521253551_3_alg».proof.Proof.Gen.KernelIdeal.Frame
import proofs.«409468_j32667521253551_3_alg».proof.Proof.Gen.ReferenceIdeal
import proofs.«409468_j32667521253551_3_alg».proof.Proof.Gen.Pre_finite_inputs
import proofs.«409468_j32667521253551_3_alg».proof.Proof.Gen.KernelIdeal.Value
import proofs.«409468_j32667521253551_3_alg».proof.Proof.RunP
import proofs.«409468_j32667521253551_3_alg».proof.Proof.ReadP
import proofs.«409468_j32667521253551_3_alg».proof.Proof.Bridge
import Idealize.ShloMosaic.Adequacy
import Idealize.ShloMosaic.Init

noncomputable section

namespace Cert.Proof

open Idealize.ShloMosaic Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the output array at `Cert.KernelIdeal.Blocks.G` of the kernel program's arguments: the
    kernel by its blocks, the reference by its stages at arguments that agree. -/
theorem algebraic : Cert.algebraic_KernelIdeal_ReferenceIdeal := by
  intro m ρ m' ρ' _ hagree
  refine ⟨fun c => Cert.KernelIdeal.Blocks.G m c, Cert.KernelIdeal.Blocks.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v53_eq, (hagree c).1, (hagree c).2.1, (hagree c).2.2.1, (hagree c).2.2.2.1,
    (hagree c).2.2.2.2.1, (hagree c).2.2.2.2.2]
  exact (Cert.Bridge.G_eq m c).symm

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
